-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x5x3x84x84 : Shape := ⟨5, ![32, 5, 3, 84, 84]⟩
abbrev S32x15x3x84x84 : Shape := ⟨5, ![32, 15, 3, 84, 84]⟩
abbrev S21168x1600 : Shape := ⟨2, ![21168, 1600]⟩
abbrev S_ : Shape := ⟨0, ![]⟩

class Facts : Prop where
  bcast_S_S32x5x3x84x84 : S_.BroadcastsInDim S32x5x3x84x84 (![] : Fin 0 → Fin S32x5x3x84x84.rank)
  reducesTo_S32x5x3x84x84_S_d0_1_2_3_4 : S32x5x3x84x84.ReducesTo [0, 1, 2, 3, 4] S_
  h_S_ : 0 < S_.numel
  bcast_S_S32x15x3x84x84 : S_.BroadcastsInDim S32x15x3x84x84 (![] : Fin 0 → Fin S32x15x3x84x84.rank)
  reducesTo_S32x15x3x84x84_S_d0_1_2_3_4 : S32x15x3x84x84.ReducesTo [0, 1, 2, 3, 4] S_
  bcast_S_S21168x1600 : S_.BroadcastsInDim S21168x1600 (![] : Fin 0 → Fin S21168x1600.rank)
  reducesTo_S21168x1600_S_d0_1 : S21168x1600.ReducesTo [0, 1] S_

variable [Facts]

def fn {F : FTy → Type} [FloatOps F] (main_arg0 : FVec F S32x5x3x84x84 .f32) (main_arg1 : FVec F S32x15x3x84x84 .f32) (main_arg2 : FVec F S21168x1600 .f32) : IVec S_ 1 :=
  let main_v0 : FVec F S32x5x3x84x84 .f32 := Host.absf main_arg0
  let main_cst : FVec F S_ .f32 := constant S_ .f32 0x7F800000#32
  let main_v1 : FVec F S32x5x3x84x84 .f32 := broadcastInDim S32x5x3x84x84 ![] bcast_S_S32x5x3x84x84 main_cst
  let main_v2 : IVec S32x5x3x84x84 1 := cmpf .olt main_v0 main_v1
  let main_c : IVec S_ 1 := constantI S_ 1 1#1
  let main_v3 : IVec S_ 1 := (fun x v => Host.reduce IntOp.andi x v reducesTo_S32x5x3x84x84_S_d0_1_2_3_4 h_S_) main_v2 main_c
  let main_v4 : FVec F S32x15x3x84x84 .f32 := Host.absf main_arg1
  let main_cst_0 : FVec F S_ .f32 := constant S_ .f32 0x7F800000#32
  let main_v5 : FVec F S32x15x3x84x84 .f32 := broadcastInDim S32x15x3x84x84 ![] bcast_S_S32x15x3x84x84 main_cst_0
  let main_v6 : IVec S32x15x3x84x84 1 := cmpf .olt main_v4 main_v5
  let main_c_1 : IVec S_ 1 := constantI S_ 1 1#1
  let main_v7 : IVec S_ 1 := (fun x v => Host.reduce IntOp.andi x v reducesTo_S32x15x3x84x84_S_d0_1_2_3_4 h_S_) main_v6 main_c_1
  let main_v8 : IVec S_ 1 := andi main_v3 main_v7
  let main_v9 : FVec F S21168x1600 .f32 := Host.absf main_arg2
  let main_cst_2 : FVec F S_ .f32 := constant S_ .f32 0x7F800000#32
  let main_v10 : FVec F S21168x1600 .f32 := broadcastInDim S21168x1600 ![] bcast_S_S21168x1600 main_cst_2
  let main_v11 : IVec S21168x1600 1 := cmpf .olt main_v9 main_v10
  let main_c_3 : IVec S_ 1 := constantI S_ 1 1#1
  let main_v12 : IVec S_ 1 := (fun x v => Host.reduce IntOp.andi x v reducesTo_S21168x1600_S_d0_1 h_S_) main_v11 main_c_3
  let main_v13 : IVec S_ 1 := andi main_v8 main_v12
  main_v13
-- ==== Kernel.lean ====
abbrev S32x5x3x84x84 : Shape := ⟨5, ![32, 5, 3, 84, 84]⟩
abbrev S32x15x3x84x84 : Shape := ⟨5, ![32, 15, 3, 84, 84]⟩
abbrev S21168x1600 : Shape := ⟨2, ![21168, 1600]⟩
abbrev S160x21168 : Shape := ⟨2, ![160, 21168]⟩
abbrev S480x21168 : Shape := ⟨2, ![480, 21168]⟩
abbrev S640x21168 : Shape := ⟨2, ![640, 21168]⟩
abbrev S_ : Shape := ⟨0, ![]⟩
abbrev S640x21504 : Shape := ⟨2, ![640, 21504]⟩
abbrev S21504x1664 : Shape := ⟨2, ![21504, 1664]⟩
abbrev S640x1664 : Shape := ⟨2, ![640, 1664]⟩
abbrev S320x1536 : Shape := ⟨2, ![320, 1536]⟩
abbrev S1536x1664 : Shape := ⟨2, ![1536, 1664]⟩
abbrev S320x1664 : Shape := ⟨2, ![320, 1664]⟩
abbrev S640x1600 : Shape := ⟨2, ![640, 1600]⟩
abbrev S160x1600 : Shape := ⟨2, ![160, 1600]⟩
abbrev S480x1600 : Shape := ⟨2, ![480, 1600]⟩
abbrev S32x5x1600 : Shape := ⟨3, ![32, 5, 1600]⟩
abbrev S32x1600 : Shape := ⟨2, ![32, 1600]⟩
abbrev S480 : Shape := ⟨1, ![480]⟩
abbrev S480x1 : Shape := ⟨2, ![480, 1]⟩
abbrev S32 : Shape := ⟨1, ![32]⟩
abbrev S32x1 : Shape := ⟨2, ![32, 1]⟩
abbrev S1600x32 : Shape := ⟨2, ![1600, 32]⟩
abbrev S480x32 : Shape := ⟨2, ![480, 32]⟩

abbrev nBuf : Space → Nat
  | .hbm => 61
  | .vmem => 7
  | .smem => 0
  | _ => 0

abbrev bufTy : (tb : Table) → Fin (tcTables nBuf tb) → BufTy
  | .hbm, ⟨0, _⟩ => ⟨S32x5x3x84x84, .f32⟩
  | .hbm, ⟨1, _⟩ => ⟨S32x15x3x84x84, .f32⟩
  | .hbm, ⟨2, _⟩ => ⟨S21168x1600, .f32⟩
  | .hbm, ⟨3, _⟩ => ⟨S160x21168, .f32⟩
  | .hbm, ⟨4, _⟩ => ⟨S480x21168, .f32⟩
  | .hbm, ⟨5, _⟩ => ⟨S640x21168, .f32⟩
  | .hbm, ⟨6, _⟩ => ⟨S_, .i32⟩
  | .hbm, ⟨7, _⟩ => ⟨S_, .f32⟩
  | .hbm, ⟨8, _⟩ => ⟨S640x21504, .f32⟩
  | .hbm, ⟨9, _⟩ => ⟨S640x21504, .bf16⟩
  | .hbm, ⟨10, _⟩ => ⟨S_, .i32⟩
  | .hbm, ⟨11, _⟩ => ⟨S_, .f32⟩
  | .hbm, ⟨12, _⟩ => ⟨S21504x1664, .f32⟩
  | .hbm, ⟨13, _⟩ => ⟨S21504x1664, .bf16⟩
  | .hbm, ⟨14, _⟩ => ⟨S640x1664, .f32⟩
  | .hbm, ⟨15, _⟩ => ⟨S640x1600, .f32⟩
  | .hbm, ⟨16, _⟩ => ⟨S160x1600, .f32⟩
  | .hbm, ⟨17, _⟩ => ⟨S480x1600, .f32⟩
  | .hbm, ⟨18, _⟩ => ⟨S32x5x1600, .f32⟩
  | .hbm, ⟨19, _⟩ => ⟨S_, .f32⟩
  | .hbm, ⟨20, _⟩ => ⟨S32x1600, .f32⟩
  | .hbm, ⟨21, _⟩ => ⟨S_, .f32⟩
  | .hbm, ⟨22, _⟩ => ⟨S32x1600, .f32⟩
  | .hbm, ⟨23, _⟩ => ⟨S32x1600, .f32⟩
  | .hbm, ⟨24, _⟩ => ⟨S480x1600, .f32⟩
  | .hbm, ⟨25, _⟩ => ⟨S_, .f32⟩
  | .hbm, ⟨26, _⟩ => ⟨S480, .f32⟩
  | .hbm, ⟨27, _⟩ => ⟨S480x1, .f32⟩
  | .hbm, ⟨28, _⟩ => ⟨S480x1, .f32⟩
  | .hbm, ⟨29, _⟩ => ⟨S_, .f32⟩
  | .hbm, ⟨30, _⟩ => ⟨S480x1, .f32⟩
  | .hbm, ⟨31, _⟩ => ⟨S480x1, .f32⟩
  | .hbm, ⟨32, _⟩ => ⟨S480x1600, .f32⟩
  | .hbm, ⟨33, _⟩ => ⟨S480x1600, .f32⟩
  | .hbm, ⟨34, _⟩ => ⟨S32x1600, .f32⟩
  | .hbm, ⟨35, _⟩ => ⟨S_, .f32⟩
  | .hbm, ⟨36, _⟩ => ⟨S32, .f32⟩
  | .hbm, ⟨37, _⟩ => ⟨S32x1, .f32⟩
  | .hbm, ⟨38, _⟩ => ⟨S32x1, .f32⟩
  | .hbm, ⟨39, _⟩ => ⟨S_, .f32⟩
  | .hbm, ⟨40, _⟩ => ⟨S32x1, .f32⟩
  | .hbm, ⟨41, _⟩ => ⟨S32x1, .f32⟩
  | .hbm, ⟨42, _⟩ => ⟨S32x1600, .f32⟩
  | .hbm, ⟨43, _⟩ => ⟨S32x1600, .f32⟩
  | .hbm, ⟨44, _⟩ => ⟨S1600x32, .f32⟩
  | .hbm, ⟨45, _⟩ => ⟨S480x32, .f32⟩
  | .hbm, ⟨46, _⟩ => ⟨S_, .f32⟩
  | .hbm, ⟨47, _⟩ => ⟨S480, .f32⟩
  | .hbm, ⟨48, _⟩ => ⟨S_, .f32⟩
  | .hbm, ⟨49, _⟩ => ⟨S480, .f32⟩
  | .hbm, ⟨50, _⟩ => ⟨S480, .f32⟩
  | .hbm, ⟨51, _⟩ => ⟨S480x1, .f32⟩
  | .hbm, ⟨52, _⟩ => ⟨S480x32, .f32⟩
  | .hbm, ⟨53, _⟩ => ⟨S480x32, .f32⟩
  | .hbm, ⟨54, _⟩ => ⟨S480x32, .f32⟩
  | .hbm, ⟨55, _⟩ => ⟨S_, .f32⟩
  | .hbm, ⟨56, _⟩ => ⟨S480, .f32⟩
  | .hbm, ⟨57, _⟩ => ⟨S480x1, .f32⟩
  | .hbm, ⟨58, _⟩ => ⟨S480x1, .f32⟩
  | .hbm, ⟨59, _⟩ => ⟨S480x32, .f32⟩
  | .hbm, ⟨60, _⟩ => ⟨S480x32, .f32⟩
  | .local _ .vmem, ⟨0, _⟩ => ⟨S320x1536, .bf16⟩
  | .local _ .vmem, ⟨1, _⟩ => ⟨S320x1536, .bf16⟩
  | .local _ .vmem, ⟨2, _⟩ => ⟨S1536x1664, .bf16⟩
  | .local _ .vmem, ⟨3, _⟩ => ⟨S1536x1664, .bf16⟩
  | .local _ .vmem, ⟨4, _⟩ => ⟨S320x1664, .f32⟩
  | .local _ .vmem, ⟨5, _⟩ => ⟨S320x1664, .f32⟩
  | .local _ .vmem, ⟨6, _⟩ => ⟨S320x1664, .f32⟩
  | _, _ => ⟨S32x5x3x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_call2_v2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call3_v0 : Ref sig .tc := ⟨.hbm, 34, rfl⟩
abbrev main_call3_cst : Ref sig .tc := ⟨.hbm, 35, rfl⟩
abbrev main_call3_v1 : Ref sig .tc := ⟨.hbm, 36, rfl⟩
abbrev main_call3_v2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call4_cst : Ref sig .tc := ⟨.hbm, 46, rfl⟩
abbrev main_call4_v0 : Ref sig .tc := ⟨.hbm, 47, rfl⟩
abbrev main_call4_cst_0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_v6 : Ref sig .tc := ⟨.hbm, 54, rfl⟩
abbrev main_call4_cst_1 : Ref sig .tc := ⟨.hbm, 55, rfl⟩
abbrev main_call4_v7 : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_v27 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg1 : BitVec 32 := BitVec.ofNat 32 (i 1).val
  let c13_i32 : BitVec 32 := 13#32
  let v13 : BitVec 1 := Scalar.cmpi .eq arg1 c13_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S320x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S320x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x5x3x84x84_S160x21168 : S32x5x3x84x84.ShapeCasts S160x21168
  shapeCasts_S32x15x3x84x84_S480x21168 : S32x15x3x84x84.ShapeCasts S480x21168
  concatenates_S160x21168_S480x21168_S640x21168_d0 : Shape.Concatenates [S160x21168, S480x21168] S640x21168 0
  pads_S640x21168_S640x21504_000_03360 : S640x21168.Pads (![0, 0] : Fin 2 → Nat) ![0, 336] ![0, 0] S640x21504
  h_S_ : 0 < S_.numel
  bitsLt_bf16_f32 : FTy.bits .bf16 < FTy.bits .f32
  pads_S21168x1600_S21504x1664_03360_0640 : S21168x1600.Pads (![0, 0] : Fin 2 → Nat) ![336, 64] ![0, 0] S21504x1664
  inb_S320x1664_S320x1664_0_0 : ∀ a, (![0, 0] : Fin 2 → Nat) a + S320x1664.size a ≤ S320x1664.size a
  h_S320x1664 : 0 < S320x1664.numel
  shapeCasts_S320x1664_S320x1664 : S320x1664.ShapeCasts S320x1664
  inb_S320x1536_S320x1536_0_0 : ∀ a, (![0, 0] : Fin 2 → Nat) a + S320x1536.size a ≤ S320x1536.size a
  h_S320x1536 : 0 < S320x1536.numel
  shapeCasts_S320x1536_S320x1536 : S320x1536.ShapeCasts S320x1536
  inb_S1536x1664_S1536x1664_0_0 : ∀ a, (![0, 0] : Fin 2 → Nat) a + S1536x1664.size a ≤ S1536x1664.size a
  h_S1536x1664 : 0 < S1536x1664.numel
  shapeCasts_S1536x1664_S1536x1664 : S1536x1664.ShapeCasts S1536x1664
  slices_S640x1664_S640x1600_0_0 : S640x1664.Slices ![0, 0] S640x1600
  slices_S640x1600_S160x1600_0_0 : S640x1600.Slices ![0, 0] S160x1600
  slices_S640x1600_S480x1600_160_0 : S640x1600.Slices ![160, 0] S480x1600
  shapeCasts_S160x1600_S32x5x1600 : S160x1600.ShapeCasts S32x5x1600
  reducesTo_S32x5x1600_S32x1600_d1 : S32x5x1600.ReducesTo [1] S32x1600
  bcast_S_S32x1600 : S_.BroadcastsInDim S32x1600 (![] : Fin 0 → Fin S32x1600.rank)
  reducesTo_S480x1600_S480_d1 : S480x1600.ReducesTo [1] S480
  bcast_S480_S480x1_0 : S480.BroadcastsInDim S480x1 (![0] : Fin 1 → Fin S480x1.rank)
  bcast_S_S480x1 : S_.BroadcastsInDim S480x1 (![] : Fin 0 → Fin S480x1.rank)
  bcast_S480x1_S480x1600_0_1 : S480x1.BroadcastsInDim S480x1600 (![0, 1] : Fin 2 → Fin S480x1600.rank)
  reducesTo_S32x1600_S32_d1 : S32x1600.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1600_0_1 : S32x1.BroadcastsInDim S32x1600 (![0, 1] : Fin 2 → Fin S32x1600.rank)
  transposes_S32x1600_S1600x32_1_0 : S32x1600.Transposes [1, 0] S1600x32
  reducesTo_S480x32_S480_d1 : S480x32.ReducesTo [1] S480
  bcast_S_S480 : S_.BroadcastsInDim S480 (![] : Fin 0 → Fin S480.rank)
  bcast_S480x1_S480x32_0_1 : S480x1.BroadcastsInDim S480x32 (![0, 1] : Fin 2 → Fin S480x32.rank)
  dot_S320x1536_S1536x1664_S320x1664_1_0_0_1_n_n_wf : DotDims.WF S320x1536 S1536x1664 S320x1664 [1] [0] [0] [1] [] []
  dot_S480x1600_S1600x32_S480x32_1_0_0_1_n_n_wf : DotDims.WF S480x1600 S1600x32 S480x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x1536.size a ≤ S640x21504.size a
  hwx0_0 : ∀ i : grid0.Coords, EltTy.bits .bf16 = 32 ∨ (Rect.block (s := S640x21504) S320x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x1664.size a ≤ S21504x1664.size a
  hwx0_1 : ∀ i : grid0.Coords, EltTy.bits .bf16 = 32 ∨ (Rect.block (s := S21504x1664) S1536x1664.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x1664.size a ≤ S640x1664.size a
  hwx0_2 : ∀ i : grid0.Coords, EltTy.bits .f32 = 32 ∨ (Rect.block (s := S640x1664) S320x1664.size (cc0_transform_2 i) (hinb0_2 i)).WholeWords (EltTy.packing .f32)

variable [Facts₀]

def dot_S320x1536_S1536x1664_S320x1664_1_0_0_1_n_n : DotDims S320x1536 S1536x1664 S320x1664 where
  lhsContracting := [1]
  rhsContracting := [0]
  lhsNonContracting := [0]
  rhsNonContracting := [1]
  lhsBatch := []
  rhsBatch := []
  wf := dot_S320x1536_S1536x1664_S320x1664_1_0_0_1_n_n_wf
def dot_S480x1600_S1600x32_S480x32_1_0_0_1_n_n : DotDims S480x1600 S1600x32 S480x32 where
  lhsContracting := [1]
  rhsContracting := [0]
  lhsNonContracting := [0]
  rhsNonContracting := [1]
  lhsBatch := []
  rhsBatch := []
  wf := dot_S480x1600_S1600x32_S480x32_1_0_0_1_n_n_wf

abbrev win0_0 : Pipeline.Window sig grid0 :=
  Pipeline.Window.ofSpec (Memref.whole main_v4) S320x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1536x1664.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S320x1664.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x5x3x84x84 : Shape := ⟨5, ![32, 5, 3, 84, 84]⟩
abbrev S32x15x3x84x84 : Shape := ⟨5, ![32, 15, 3, 84, 84]⟩
abbrev S21168x1600 : Shape := ⟨2, ![21168, 1600]⟩
abbrev S160x21168 : Shape := ⟨2, ![160, 21168]⟩
abbrev S160x1600 : Shape := ⟨2, ![160, 1600]⟩
abbrev S32x5x1600 : Shape := ⟨3, ![32, 5, 1600]⟩
abbrev S_ : Shape := ⟨0, ![]⟩
abbrev S32x1600 : Shape := ⟨2, ![32, 1600]⟩
abbrev S480x21168 : Shape := ⟨2, ![480, 21168]⟩
abbrev S480x1600 : Shape := ⟨2, ![480, 1600]⟩
abbrev S480 : Shape := ⟨1, ![480]⟩
abbrev S480x1 : Shape := ⟨2, ![480, 1]⟩
abbrev S32 : Shape := ⟨1, ![32]⟩
abbrev S32x1 : Shape := ⟨2, ![32, 1]⟩
abbrev S1600x32 : Shape := ⟨2, ![1600, 32]⟩
abbrev S480x32 : Shape := ⟨2, ![480, 32]⟩

abbrev nBuf : Space → Nat
  | .hbm => 50
  | .vmem => 0
  | .smem => 0
  | _ => 0

abbrev bufTy : (tb : Table) → Fin (tcTables nBuf tb) → BufTy
  | .hbm, ⟨0, _⟩ => ⟨S32x5x3x84x84, .f32⟩
  | .hbm, ⟨1, _⟩ => ⟨S32x15x3x84x84, .f32⟩
  | .hbm, ⟨2, _⟩ => ⟨S21168x1600, .f32⟩
  | .hbm, ⟨3, _⟩ => ⟨S160x21168, .f32⟩
  | .hbm, ⟨4, _⟩ => ⟨S160x1600, .f32⟩
  | .hbm, ⟨5, _⟩ => ⟨S32x5x1600, .f32⟩
  | .hbm, ⟨6, _⟩ => ⟨S_, .f32⟩
  | .hbm, ⟨7, _⟩ => ⟨S32x1600, .f32⟩
  | .hbm, ⟨8, _⟩ => ⟨S_, .f32⟩
  | .hbm, ⟨9, _⟩ => ⟨S32x1600, .f32⟩
  | .hbm, ⟨10, _⟩ => ⟨S32x1600, .f32⟩
  | .hbm, ⟨11, _⟩ => ⟨S480x21168, .f32⟩
  | .hbm, ⟨12, _⟩ => ⟨S480x1600, .f32⟩
  | .hbm, ⟨13, _⟩ => ⟨S480x1600, .f32⟩
  | .hbm, ⟨14, _⟩ => ⟨S_, .f32⟩
  | .hbm, ⟨15, _⟩ => ⟨S480, .f32⟩
  | .hbm, ⟨16, _⟩ => ⟨S480x1, .f32⟩
  | .hbm, ⟨17, _⟩ => ⟨S480x1, .f32⟩
  | .hbm, ⟨18, _⟩ => ⟨S_, .f32⟩
  | .hbm, ⟨19, _⟩ => ⟨S480x1, .f32⟩
  | .hbm, ⟨20, _⟩ => ⟨S480x1, .f32⟩
  | .hbm, ⟨21, _⟩ => ⟨S480x1600, .f32⟩
  | .hbm, ⟨22, _⟩ => ⟨S480x1600, .f32⟩
  | .hbm, ⟨23, _⟩ => ⟨S32x1600, .f32⟩
  | .hbm, ⟨24, _⟩ => ⟨S_, .f32⟩
  | .hbm, ⟨25, _⟩ => ⟨S32, .f32⟩
  | .hbm, ⟨26, _⟩ => ⟨S32x1, .f32⟩
  | .hbm, ⟨27, _⟩ => ⟨S32x1, .f32⟩
  | .hbm, ⟨28, _⟩ => ⟨S_, .f32⟩
  | .hbm, ⟨29, _⟩ => ⟨S32x1, .f32⟩
  | .hbm, ⟨30, _⟩ => ⟨S32x1, .f32⟩
  | .hbm, ⟨31, _⟩ => ⟨S32x1600, .f32⟩
  | .hbm, ⟨32, _⟩ => ⟨S32x1600, .f32⟩
  | .hbm, ⟨33, _⟩ => ⟨S1600x32, .f32⟩
  | .hbm, ⟨34, _⟩ => ⟨S480x32, .f32⟩
  | .hbm, ⟨35, _⟩ => ⟨S_, .f32⟩
  | .hbm, ⟨36, _⟩ => ⟨S480, .f32⟩
  | .hbm, ⟨37, _⟩ => ⟨S_, .f32⟩
  | .hbm, ⟨38, _⟩ => ⟨S480, .f32⟩
  | .hbm, ⟨39, _⟩ => ⟨S480, .f32⟩
  | .hbm, ⟨40, _⟩ => ⟨S480x1, .f32⟩
  | .hbm, ⟨41, _⟩ => ⟨S480x32, .f32⟩
  | .hbm, ⟨42, _⟩ => ⟨S480x32, .f32⟩
  | .hbm, ⟨43, _⟩ => ⟨S480x32, .f32⟩
  | .hbm, ⟨44, _⟩ => ⟨S_, .f32⟩
  | .hbm, ⟨45, _⟩ => ⟨S480, .f32⟩
  | .hbm, ⟨46, _⟩ => ⟨S480x1, .f32⟩
  | .hbm, ⟨47, _⟩ => ⟨S480x1, .f32⟩
  | .hbm, ⟨48, _⟩ => ⟨S480x32, .f32⟩
  | .hbm, ⟨49, _⟩ => ⟨S480x32, .f32⟩
  | _, _ => ⟨S32x5x3x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  shapeCasts_S32x5x3x84x84_S160x21168 : S32x5x3x84x84.ShapeCasts S160x21168
  shapeCasts_S160x1600_S32x5x1600 : S160x1600.ShapeCasts S32x5x1600
  reducesTo_S32x5x1600_S32x1600_d1 : S32x5x1600.ReducesTo [1] S32x1600
  h_S_ : 0 < S_.numel
  bcast_S_S32x1600 : S_.BroadcastsInDim S32x1600 (![] : Fin 0 → Fin S32x1600.rank)
  shapeCasts_S32x15x3x84x84_S480x21168 : S32x15x3x84x84.ShapeCasts S480x21168
  reducesTo_S480x1600_S480_d1 : S480x1600.ReducesTo [1] S480
  bcast_S480_S480x1_0 : S480.BroadcastsInDim S480x1 (![0] : Fin 1 → Fin S480x1.rank)
  bcast_S_S480x1 : S_.BroadcastsInDim S480x1 (![] : Fin 0 → Fin S480x1.rank)
  bcast_S480x1_S480x1600_0_1 : S480x1.BroadcastsInDim S480x1600 (![0, 1] : Fin 2 → Fin S480x1600.rank)
  reducesTo_S32x1600_S32_d1 : S32x1600.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1600_0_1 : S32x1.BroadcastsInDim S32x1600 (![0, 1] : Fin 2 → Fin S32x1600.rank)
  transposes_S32x1600_S1600x32_1_0 : S32x1600.Transposes [1, 0] S1600x32
  reducesTo_S480x32_S480_d1 : S480x32.ReducesTo [1] S480
  bcast_S_S480 : S_.BroadcastsInDim S480 (![] : Fin 0 → Fin S480.rank)
  bcast_S480x1_S480x32_0_1 : S480x1.BroadcastsInDim S480x32 (![0, 1] : Fin 2 → Fin S480x32.rank)
  dot_S160x21168_S21168x1600_S160x1600_1_0_0_1_n_n_wf : DotDims.WF S160x21168 S21168x1600 S160x1600 [1] [0] [0] [1] [] []
  dot_S480x21168_S21168x1600_S480x1600_1_0_0_1_n_n_wf : DotDims.WF S480x21168 S21168x1600 S480x1600 [1] [0] [0] [1] [] []
  dot_S480x1600_S1600x32_S480x32_1_0_0_1_n_n_wf : DotDims.WF S480x1600 S1600x32 S480x32 [1] [0] [0] [1] [] []

variable [Facts₀]

def dot_S160x21168_S21168x1600_S160x1600_1_0_0_1_n_n : DotDims S160x21168 S21168x1600 S160x1600 where
  lhsContracting := [1]
  rhsContracting := [0]
  lhsNonContracting := [0]
  rhsNonContracting := [1]
  lhsBatch := []
  rhsBatch := []
  wf := dot_S160x21168_S21168x1600_S160x1600_1_0_0_1_n_n_wf
def dot_S480x21168_S21168x1600_S480x1600_1_0_0_1_n_n : DotDims S480x21168 S21168x1600 S480x1600 where
  lhsContracting := [1]
  rhsContracting := [0]
  lhsNonContracting := [0]
  rhsNonContracting := [1]
  lhsBatch := []
  rhsBatch := []
  wf := dot_S480x21168_S21168x1600_S480x1600_1_0_0_1_n_n_wf
def dot_S480x1600_S1600x32_S480x32_1_0_0_1_n_n : DotDims S480x1600 S1600x32 S480x32 where
  lhsContracting := [1]
  rhsContracting := [0]
  lhsNonContracting := [0]
  rhsNonContracting := [1]
  lhsBatch := []
  rhsBatch := []
  wf := dot_S480x1600_S1600x32_S480x32_1_0_0_1_n_n_wf

class Facts : Prop extends Facts₀ where

variable [Facts]
-- ==== Proof.Pieces.lean ====
/-
  What one grid step leaves in the accumulator, and what the last step of a row tile writes to the output block.

  The kernel body keeps a 320×1664 f32 accumulator in scratch memory. At the first contraction step of a row tile it
  stores zeros, reads them back and adds the step's block product; at every later step it adds the block product to
  what the step before left; at the last step it also copies the accumulator to the output block. So in every case the
  accumulator ends at `acc + A_blk · B_blk` (the payload `k0_pay2`), with `acc` the zero block at a first step, and the
  output block at a last step holds the same value. Each is one store covering the whole buffer, read back whole.
-/
import proofs.«137156_j45646912422244_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- First step of a row tile: the accumulator ends at (zero block) + block product. -/
theorem scratch_A (c : Dev nD) (i : grid0.Coords) (arg2 : Memref sig .tc .vmem S320x1536 .bf16) (harg2 : arg2.IsWhole) (arg3 : Memref sig .tc .vmem S1536x1664 .bf16) (harg3 : arg3.IsWhole) (arg4 : Memref sig .tc .vmem S320x1664 .f32) (harg4 : arg4.IsWhole) (arg5 : Memref sig .tc .vmem S320x1664 .f32) (harg5 : arg5.IsWhole) (hc0 : cond0_0 i) (hc1 : ¬cond0_1 i)
    (x0 : Vec F S320x1536 .bf16) (x1 : Vec F S1536x1664 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S320x1664) hz, View.readCov_unit_zero (S := S320x1664) _ hz]
  simp only [View.readAt_eq_ld, harg2.read_unread, harg3.read_unread, View.ld_unit_zero (S := S320x1536) hz,
    View.ld_unit_zero (S := S1536x1664) hz]

/-- A middle step: the accumulator ends at (what the step before left) + block product. -/
theorem scratch_B (c : Dev nD) (i : grid0.Coords) (arg2 : Memref sig .tc .vmem S320x1536 .bf16) (harg2 : arg2.IsWhole) (arg3 : Memref sig .tc .vmem S1536x1664 .bf16) (harg3 : arg3.IsWhole) (arg4 : Memref sig .tc .vmem S320x1664 .f32) (harg4 : arg4.IsWhole) (arg5 : Memref sig .tc .vmem S320x1664 .f32) (harg5 : arg5.IsWhole) (hc0 : ¬cond0_0 i) (hc1 : ¬cond0_1 i)
    (x0 : Vec F S320x1536 .bf16) (x1 : Vec F S1536x1664 .bf16) (xs0 : Vec F S320x1664 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S320x1664) hz]
  simp only [View.readAt_eq_ld, harg2.read_unread, harg3.read_unread, harg5.read_unread, View.ld_unit_zero (S := S320x1536) hz,
    View.ld_unit_zero (S := S1536x1664) hz, View.ld_unit_zero (S := S320x1664) hz]

/-- The last step of a row tile: the accumulator likewise, -/
theorem scratch_C (c : Dev nD) (i : grid0.Coords) (arg2 : Memref sig .tc .vmem S320x1536 .bf16) (harg2 : arg2.IsWhole) (arg3 : Memref sig .tc .vmem S1536x1664 .bf16) (harg3 : arg3.IsWhole) (arg4 : Memref sig .tc .vmem S320x1664 .f32) (harg4 : arg4.IsWhole) (arg5 : Memref sig .tc .vmem S320x1664 .f32) (harg5 : arg5.IsWhole) (hc0 : ¬cond0_0 i) (hc1 : cond0_1 i)
    (x0 : Vec F S320x1536 .bf16) (x1 : Vec F S1536x1664 .bf16) (xs0 : Vec F S320x1664 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S320x1664) hz]
  simp only [View.readAt_eq_ld, harg2.read_unread, harg3.read_unread, harg5.read_unread, View.ld_unit_zero (S := S320x1536) hz,
    View.ld_unit_zero (S := S1536x1664) hz, View.ld_unit_zero (S := S320x1664) hz]

/-- and the output block holds the accumulator just stored. -/
theorem out_C (c : Dev nD) (i : grid0.Coords) (arg2 : Memref sig .tc .vmem S320x1536 .bf16) (harg2 : arg2.IsWhole) (arg3 : Memref sig .tc .vmem S1536x1664 .bf16) (harg3 : arg3.IsWhole) (arg4 : Memref sig .tc .vmem S320x1664 .f32) (harg4 : arg4.IsWhole) (arg5 : Memref sig .tc .vmem S320x1664 .f32) (harg5 : arg5.IsWhole) (hc0 : ¬cond0_0 i) (hc1 : cond0_1 i)
    (x0 : Vec F S320x1536 .bf16) (x1 : Vec F S1536x1664 .bf16) (xs0 : Vec F S320x1664 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S320x1664) hz, View.readCov_unit_zero (S := S320x1664) _ hz]
  simp only [View.readAt_eq_ld, harg2.read_unread, harg3.read_unread, harg5.read_unread, View.ld_unit_zero (S := S320x1536) hz,
    View.ld_unit_zero (S := S1536x1664) hz, View.ld_unit_zero (S := S320x1664) hz]

end Cert.KernelIdeal.Val

end
-- ==== Proof.MatSum.lean ====
/-
  Sums over a contraction axis cut into consecutive blocks, and over an axis padded with zeros.

  The kernel accumulates the product over 14 consecutive blocks of 1536 contraction indices: after each block the
  accumulator is the sum over all indices below the block's end (`sum_range_block`). The contraction axis is padded from
  21168 to 21504 with zeros, and the padded terms add nothing (`sum_range_pad`). Both hold in any commutative additive
  monoid; no finiteness is used.
-/
import Idealize.ShloMosaic.PureOps.Ideal

namespace Cert.MatSum

open Finset

/-- An accumulator holding the sum of `f` below `a`, plus a block `g` that lists `f` on the next `n` indices, holds the
    sum of `f` below `a + n`. -/
theorem sum_range_block {M : Type} [AddCommMonoid M] (f : ℕ → M) (a n : ℕ) (g : Fin n → M) (acc : M)
    (hacc : acc = ∑ k ∈ range a, f k) (hg : ∀ k : Fin n, g k = f (a + k.val)) :
    acc + ∑ k, g k = ∑ k ∈ range (a + n), f k := by
  rw [Finset.sum_range_add, hacc, Finset.sum_range (fun x => f (a + x))]
  exact congrArg (_ + ·) (Finset.sum_congr rfl fun k _ => hg k)

/-- Terms that vanish from `a` on add nothing to a sum over a longer range. -/
theorem sum_range_pad {M : Type} [AddCommMonoid M] (f : ℕ → M) (a n : ℕ) (h0 : ∀ k, a ≤ k → f k = 0) :
    ∑ k ∈ range (a + n), f k = ∑ k ∈ range a, f k := by
  rw [Finset.sum_range_add, Finset.sum_eq_zero (fun k _ => h0 _ (Nat.le_add_right _ _)), add_zero]

end Cert.MatSum
-- ==== Proof.Accum.lean ====
/-
  The accumulator over the grid, and the output array it ends in.

  Grid point n = 14·r + j handles row tile r (320 rows of the padded left operand A, 640×21504) and contraction block
  j (1536 of the 21504 contraction indices; the right operand B is 21504×1664). Reading the step values of
  Proof/Pieces.lean at an index at the ideal instance: after point n the accumulator's entry (p, q) is the sum over all
  contraction indices k below (j + 1)·1536 of A[320·r + p, k] · B[k, q] — by induction on n, each step adding one block
  (`MatSum.sum_range_block`), the first step of a tile starting from zero. The last step of a tile (j = 13) writes the
  accumulator to the output block of rows 320·r .. 320·r + 319, and the two tiles cover the 640×1664 output array, which
  therefore ends holding, at (i, q), the sum over all 21504 indices k of A[i, k] · B[k, q].
-/
import proofs.«137156_j45646912422244_1_alg».proof.Proof.Pieces
import proofs.«137156_j45646912422244_1_alg».proof.Proof.MatSum
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-! ## One block product at an index -/

theorem lhs_0 (i : S320x1664.Idx) (q : dot_S320x1536_S1536x1664_S320x1664_1_0_0_1_n_n.contr.Idx) :
    (dot_S320x1536_S1536x1664_S320x1664_1_0_0_1_n_n.lhsIdx i q 0).val = (i 0).val := by
  unfold DotDims.lhsIdx
  rw [dif_neg (show ¬(0 : Fin S320x1536.rank) ∈ dot_S320x1536_S1536x1664_S320x1664_1_0_0_1_n_n.lhsBatch by decide), dif_pos (show (0 : Fin S320x1536.rank) ∈ dot_S320x1536_S1536x1664_S320x1664_1_0_0_1_n_n.lhsNonContracting by decide)]
  rfl
theorem lhs_1 (i : S320x1664.Idx) (q : dot_S320x1536_S1536x1664_S320x1664_1_0_0_1_n_n.contr.Idx) :
    (dot_S320x1536_S1536x1664_S320x1664_1_0_0_1_n_n.lhsIdx i q 1).val = (q ⟨0, by decide⟩).val :=
  dot_S320x1536_S1536x1664_S320x1664_1_0_0_1_n_n.lhsIdx_val_of_single rfl i q
theorem rhs_0 (i : S320x1664.Idx) (q : dot_S320x1536_S1536x1664_S320x1664_1_0_0_1_n_n.contr.Idx) :
    (dot_S320x1536_S1536x1664_S320x1664_1_0_0_1_n_n.rhsIdx i q 0).val = (q ⟨0, by decide⟩).val :=
  dot_S320x1536_S1536x1664_S320x1664_1_0_0_1_n_n.rhsIdx_val_of_single rfl i q
theorem rhs_1 (i : S320x1664.Idx) (q : dot_S320x1536_S1536x1664_S320x1664_1_0_0_1_n_n.contr.Idx) :
    (dot_S320x1536_S1536x1664_S320x1664_1_0_0_1_n_n.rhsIdx i q 1).val = (i 1).val := by
  unfold DotDims.rhsIdx
  rw [dif_neg (show ¬(1 : Fin S1536x1664.rank) ∈ dot_S320x1536_S1536x1664_S320x1664_1_0_0_1_n_n.rhsBatch by decide), dif_pos (show (1 : Fin S1536x1664.rank) ∈ dot_S320x1536_S1536x1664_S320x1664_1_0_0_1_n_n.rhsNonContracting by decide)]
  rfl

/-- The block product into a zero accumulator, at (p, q): the sum over the block's 1536 contraction indices. -/
theorem mm_apply (x : FVec Ideal S320x1536 .bf16) (w : FVec Ideal S1536x1664 .bf16) (p : Fin 320) (q : Fin 1664) :
    matmul dot_S320x1536_S1536x1664_S320x1664_1_0_0_1_n_n none x w (constant S320x1664 .f32 0x00000000#32) (ix2 p q)
      = ∑ k : Fin 1536, x (ix2 p k) * w (ix2 k q) := by
  refine (Ideal.matmul_constant_zero_apply dot_S320x1536_S1536x1664_S320x1664_1_0_0_1_n_n none x w (ix2 p q)).trans ?_
  rw [← Equiv.sum_comp (contrEquiv1 dot_S320x1536_S1536x1664_S320x1664_1_0_0_1_n_n 1536 rfl rfl).symm]
  refine Finset.sum_congr rfl fun k _ => ?_
  have hk := contrEquiv1_symm_val dot_S320x1536_S1536x1664_S320x1664_1_0_0_1_n_n 1536 rfl rfl k
  have el : dot_S320x1536_S1536x1664_S320x1664_1_0_0_1_n_n.lhsIdx (ix2 p q) ((contrEquiv1 dot_S320x1536_S1536x1664_S320x1664_1_0_0_1_n_n 1536 rfl rfl).symm k) = ix2 p k := funext fun a => Fin.ext (by
    match a with
    | ⟨0, _⟩ => exact lhs_0 _ _
    | ⟨1, _⟩ => exact (lhs_1 _ _).trans hk)
  have er : dot_S320x1536_S1536x1664_S320x1664_1_0_0_1_n_n.rhsIdx (ix2 p q) ((contrEquiv1 dot_S320x1536_S1536x1664_S320x1664_1_0_0_1_n_n 1536 rfl rfl).symm k) = ix2 k q := funext fun a => Fin.ext (by
    match a with
    | ⟨0, _⟩ => exact (rhs_0 _ _).trans hk
    | ⟨1, _⟩ => exact rhs_1 _ _)
  rw [el, er]

/-- One step's value at (p, q): what was there plus the block's sum. -/
theorem pay2_apply (acc : FVec Ideal S320x1664 .f32) (x : FVec Ideal S320x1536 .bf16) (w : FVec Ideal S1536x1664 .bf16)
    (p : Fin 320) (q : Fin 1664) :
    k0_pay2 (F := Ideal) acc x w (ix2 p q) = acc (ix2 p q) + ∑ k : Fin 1536, x (ix2 p k) * w (ix2 k q) := by
  unfold k0_pay2
  simp only [shapeCast_self]
  exact congrArg (acc (ix2 p q) + ·) (mm_apply x w p q)

/-- The reset block is zero everywhere. -/
theorem pay1_apply (j : S320x1664.Idx) : k0_pay1 (F := Ideal) j = 0 := by
  unfold k0_pay1
  simp only [shapeCast_self]
  exact Ideal.ofBits_zero_f32

/-! ## The operands at natural-number positions -/

/-- The padded left operand at row `i` and contraction index `k`; zero outside the array. -/
def lhsAt (A : S640x21504.Idx → EReal) (i k : ℕ) : EReal :=
  if h : i < 640 ∧ k < 21504 then A (ix2 ⟨i, h.1⟩ ⟨k, h.2⟩) else 0

/-- The padded right operand at contraction index `k` and column `j`; zero outside the array. -/
def rhsAt (B : S21504x1664.Idx → EReal) (k j : ℕ) : EReal :=
  if h : k < 21504 ∧ j < 1664 then B (ix2 ⟨k, h.1⟩ ⟨j, h.2⟩) else 0

variable (m : (ℓ : Loc nD τ sig) → Buf (Elt Ideal) ℓ)

/-- The two operand arrays as the region finds them, and the two input blocks at a grid point, at their literal types. -/
abbrev lhsArr (c : Dev nD) : S640x21504.Idx → EReal := V m c main_v4
abbrev rhsArr (c : Dev nD) : S21504x1664.Idx → EReal := V m c main_v6
abbrev ablk (c : Dev nD) (t : Fin cfg0.N) : FVec Ideal S320x1536 .bf16 := iblk m c 0 t
abbrev bblk (c : Dev nD) (t : Fin cfg0.N) : FVec Ideal S1536x1664 .bf16 := iblk m c 1 t

/-- Point t = 14·r + j: the left window is at block (r, j), the right at (j, 0), the output at (r, 0). -/
theorem idx_facts : ∀ t : Fin cfg0.N,
    win0_0.index t (0 : Fin 2) = t.val / 14 ∧ win0_0.index t (1 : Fin 2) = t.val % 14
    ∧ win0_1.index t (0 : Fin 2) = t.val % 14 ∧ win0_1.index t (1 : Fin 2) = 0
    ∧ win0_2.index t (0 : Fin 2) = t.val / 14 ∧ win0_2.index t (1 : Fin 2) = 0 :=
  (by decide +kernel : ∀ t : Fin grid0.N, _)

/-- The left block at point t holds rows 320·(t/14).. and contraction indices 1536·(t%14).. of the left operand. -/
theorem ablk_apply (c : Dev nD) (t : Fin cfg0.N) (p : Fin 320) (k : Fin 1536) :
    ablk m c t (ix2 p k) = lhsAt (lhsArr m c) (t.val / 14 * 320 + p.val) (t.val % 14 * 1536 + k.val) := by
  obtain ⟨e0, e1, -, -, -, -⟩ := idx_facts t
  have hN : t.val < 28 := lt_of_lt_of_eq t.isLt (show cfg0.N = 28 from N_0)
  have hp := p.isLt
  have hk := k.isLt
  have hb : t.val / 14 * 320 + p.val < 640 ∧ t.val % 14 * 1536 + k.val < 21504 := by omega
  unfold lhsAt
  rw [dif_pos hb]
  unfold ablk iblk
  rw [View.read_apply]
  show V m c main_v4 _ = V m c main_v4 _
  congr 1
  funext a
  apply Fin.ext
  match a with
  | ⟨0, _⟩ => show win0_0.index t (0 : Fin 2) * 320 + 1 * p.val = t.val / 14 * 320 + p.val; rw [e0]; omega
  | ⟨1, _⟩ => show win0_0.index t (1 : Fin 2) * 1536 + 1 * k.val = t.val % 14 * 1536 + k.val; rw [e1]; omega

/-- The right block at point t holds contraction indices 1536·(t%14).. and all 1664 columns of the right operand. -/
theorem bblk_apply (c : Dev nD) (t : Fin cfg0.N) (k : Fin 1536) (q : Fin 1664) :
    bblk m c t (ix2 k q) = rhsAt (rhsArr m c) (t.val % 14 * 1536 + k.val) q.val := by
  obtain ⟨-, -, e2, e3, -, -⟩ := idx_facts t
  have hN : t.val < 28 := lt_of_lt_of_eq t.isLt (show cfg0.N = 28 from N_0)
  have hq := q.isLt
  have hk := k.isLt
  have hb : t.val % 14 * 1536 + k.val < 21504 ∧ q.val < 1664 := by omega
  unfold rhsAt
  rw [dif_pos hb]
  unfold bblk iblk
  rw [View.read_apply]
  show V m c main_v6 _ = V m c main_v6 _
  congr 1
  funext a
  apply Fin.ext
  match a with
  | ⟨0, _⟩ => show win0_1.index t (0 : Fin 2) * 1536 + 1 * k.val = t.val % 14 * 1536 + k.val; rw [e2]; omega
  | ⟨1, _⟩ => show win0_1.index t (1 : Fin 2) * 1664 + 1 * q.val = q.val; rw [e3]; omega

/-! ## The accumulator after each grid point -/

/-- The k-th term of entry (320·r + p, q) of the product. -/
abbrev term (c : Dev nD) (r : ℕ) (p : Fin 320) (q : Fin 1664) (k : ℕ) : EReal :=
  lhsAt (lhsArr m c) (r * 320 + p.val) k * rhsAt (rhsArr m c) k q.val

/-- One step: an accumulator holding the terms below the point's block ends holding the terms below the block's end. -/
theorem step_eq (c : Dev nD) (t : Fin cfg0.N) (acc : FVec Ideal S320x1664 .f32) (p : Fin 320) (q : Fin 1664)
    (hacc : acc (ix2 p q) = ∑ k ∈ Finset.range (t.val % 14 * 1536), term m c (t.val / 14) p q k) :
    k0_pay2 (F := Ideal) acc (iblk m c 0 t) (iblk m c 1 t) (ix2 p q)
      = ∑ k ∈ Finset.range ((t.val % 14 + 1) * 1536), term m c (t.val / 14) p q k := by
  have e : (t.val % 14 + 1) * 1536 = t.val % 14 * 1536 + 1536 := by omega
  rw [e]
  refine (pay2_apply acc (ablk m c t) (bblk m c t) p q).trans ?_
  exact MatSum.sum_range_block (term m c (t.val / 14) p q) (t.val % 14 * 1536) 1536 _ _ hacc
    (fun k => by rw [ablk_apply, bblk_apply])

/-- The induction step at a point, from the point before. -/
theorem acc_step (c : Dev nD) (t : Fin cfg0.N) (p : Fin 320) (q : Fin 1664)
    (ih : t.val ≠ 0 → ∀ h, (outsAt0 m c (t.val - 1) h).2 (ix2 p q)
      = ∑ k ∈ Finset.range (((t.val - 1) % 14 + 1) * 1536), term m c ((t.val - 1) / 14) p q k) :
    (outsAt0 m c t.val t.isLt).2 (ix2 p q) = ∑ k ∈ Finset.range ((t.val % 14 + 1) * 1536), term m c (t.val / 14) p q k := by
  have hN : t.val < 28 := lt_of_lt_of_eq t.isLt (show cfg0.N = 28 from N_0)
  by_cases h0 : t.val % 14 = 0
  · have h1 : ¬t.val % 14 = 13 := by omega
    rw [outsAt0_A m c t h0 h1]
    dsimp only
    refine (congrFun (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 p q)).trans ?_
    refine step_eq m c t _ p q ?_
    rw [pay1_apply, h0, Nat.zero_mul, Finset.range_zero, Finset.sum_empty]
  · have hz : t.val ≠ 0 := fun h => h0 (by rw [h])
    have hacc : (outsAt0 m c (t.val - 1) (Nat.lt_of_le_of_lt (Nat.sub_le _ _) t.isLt)).2 (ix2 p q) = ∑ k ∈ Finset.range (t.val % 14 * 1536), term m c (t.val / 14) p q k := by
      rw [ih hz]
      have e1 : (t.val - 1) % 14 + 1 = t.val % 14 := by omega
      have e2 : (t.val - 1) / 14 = t.val / 14 := by omega
      rw [e1, e2]
    by_cases h1 : t.val % 14 = 13
    · rw [outsAt0_C m c t h0 h1]
      dsimp only
      refine (congrFun (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p q)).trans ?_
      exact step_eq m c t _ p q hacc
    · rw [outsAt0_B m c t h0 h1]
      dsimp only
      refine (congrFun (scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 p q)).trans ?_
      exact step_eq m c t _ p q hacc

/-- After point n = 14·r + j the accumulator's entry (p, q) is the sum of the terms of (320·r + p, q) below (j + 1)·1536. -/
theorem acc_eq (c : Dev nD) : ∀ (n : ℕ) (hn : n < cfg0.N) (p : Fin 320) (q : Fin 1664),
    (outsAt0 m c n hn).2 (ix2 p q) = ∑ k ∈ Finset.range ((n % 14 + 1) * 1536), term m c (n / 14) p q k
  | 0, hn, p, q => acc_step m c ⟨0, hn⟩ p q (fun h => absurd rfl h)
  | n + 1, hn, p, q => acc_step m c ⟨n + 1, hn⟩ p q (fun _ h => acc_eq c n h p q)

/-- At the last step of a row tile the output block holds the accumulator: all 21504 terms. -/
theorem out_eq (c : Dev nD) (t : Fin cfg0.N) (h1 : t.val % 14 = 13) (j : S320x1664.Idx) :
    (outsAt0 m c t.val t.isLt).1 j
      = ∑ k ∈ Finset.range 21504, lhsAt (lhsArr m c) (t.val / 14 * 320 + (j 0).val) k * rhsAt (rhsArr m c) k (j 1).val := by
  obtain ⟨p, q, rfl⟩ : ∃ (p : Fin 320) (q : Fin 1664), j = ix2 p q := ⟨j 0, j 1, eq_ix2 j⟩
  have h0 : ¬t.val % 14 = 0 := by omega
  have e : (outsAt0 m c t.val t.isLt).1 = (outsAt0 m c t.val t.isLt).2 := by
    rw [outsAt0_C m c t h0 h1]
    dsimp only
    exact (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
      (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm
  rw [e, acc_eq m c t.val t.isLt p q, h1]

/-! ## The output array after the run -/

/-- Entry (r, s) of the padded product: all 21504 terms. -/
def prodAt (c : Dev nD) (r s : ℕ) : EReal :=
  ∑ k ∈ Finset.range 21504, lhsAt (lhsArr m c) r k * rhsAt (rhsArr m c) k s

/-- The padded product as contents of the 640×1664 output array. -/
def prod (c : Dev nD) (i : S640x1664.Idx) : EReal := prodAt m c (i 0).val (i 1).val

/-- What a flushing point writes back is its block of the padded product. -/
theorem flushed_eq (c : Dev nD) (t : Fin cfg0.N) (hf : (cfg0.win 2).flush t = true) :
    (dats m 0 c).flushed 2 t = ((cfg0.win 2).blk t).view.read (Elt Ideal) (prod m c) := by
  have h1 : t.val % 14 = 13 := (flush0_2 t).mp hf
  obtain ⟨-, -, -, -, e4, e5⟩ := idx_facts t
  show (cfg0.win 2).cut (grid0.coords t) ((dats m 0 c).after 2 t) = _
  rw [after0_2]
  funext j
  refine (out_eq m c t h1 j).trans ?_
  have r0 : ((((cfg0.win 2).blk t).view.emb j) 0).val = t.val / 14 * 320 + (j 0).val := by
    show win0_2.index t (0 : Fin 2) * 320 + 1 * (j 0).val = _
    rw [e4]; omega
  have r1 : ((((cfg0.win 2).blk t).view.emb j) 1).val = (j 1).val := by
    show win0_2.index t (1 : Fin 2) * 1664 + 1 * (j 1).val = _
    rw [e5]; omega
  rw [View.read_apply]
  unfold prod prodAt
  rw [r0, r1]
  exact (cast_eq _ _).symm

/-- An index of the output array is in point t's block iff each coordinate is in the block's range. -/
theorem mem_blk (t : Fin cfg0.N) (i : S640x1664.Idx) :
    i ∈ ((cfg0.win 2).blk t).view.set ↔ ∀ a : Fin 2, win0_2.index t a * S320x1664.size a ≤ (i a).val ∧ (i a).val < win0_2.index t a * S320x1664.size a + S320x1664.size a := by
  show i ∈ ((View.whole main_v7).slice (win0_2.rect t)).set ↔ _
  rw [View.set_slice_whole, Rect.mem_set_unit]
  exact Iff.rfl

/-- The output array after the run is the padded product: row i lies in the block the last step of tile i / 320 writes. -/
theorem final (c : Dev nD) : (dats m 0 c).arrAt 2 cfg0.N = prod m c :=
  (dats m 0 c).arrAt_eq_of_cover 2 (prod m c) (flushed_eq m c) fun i => by
    have hi0 : (i 0).val < 640 := (i 0).isLt
    have hi1 : (i 1).val < 1664 := (i 1).isLt
    have hT : (i 0).val / 320 * 14 + 13 < cfg0.N := by rw [show cfg0.N = 28 from N_0]; omega
    obtain ⟨-, -, -, -, e4, e5⟩ := idx_facts ⟨(i 0).val / 320 * 14 + 13, hT⟩
    refine ⟨⟨(i 0).val / 320 * 14 + 13, hT⟩, (flush0_2 _).mpr (by show ((i 0).val / 320 * 14 + 13) % 14 = 13; omega), ?_⟩
    rw [mem_blk]
    intro a
    match a with
    | ⟨0, _⟩ =>
      show win0_2.index ⟨(i 0).val / 320 * 14 + 13, hT⟩ (0 : Fin 2) * 320 ≤ (i 0).val ∧ (i 0).val < win0_2.index ⟨(i 0).val / 320 * 14 + 13, hT⟩ (0 : Fin 2) * 320 + 320
      rw [e4]; dsimp only; omega
    | ⟨1, _⟩ =>
      show win0_2.index ⟨(i 0).val / 320 * 14 + 13, hT⟩ (1 : Fin 2) * 1664 ≤ (i 1).val ∧ (i 1).val < win0_2.index ⟨(i 0).val / 320 * 14 + 13, hT⟩ (1 : Fin 2) * 1664 + 1664
      rw [e5]; omega

end Cert.KernelIdeal.Val

end
-- ==== Proof.HostPre.lean ====
/-
  The two operand arrays the pallas_call finds, read from the program's arguments.

  Left operand (640×21504): the support images flattened to 160 rows of 21168 pixels, stacked over the query images
  flattened to 480 rows, padded on the right with 336 zero columns (the padding value is the integer 0 converted).
  Right operand (21504×1664): the weights (21168×1600) padded with 336 zero rows and 64 zero columns. The conversion to
  bf16 in front of the call changes no value over the extended reals.
-/
import proofs.«137156_j45646912422244_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

open Idealize.ShloMosaic Idealize.ShloMosaic.TcCoe Idealize.SL.Sem Idealize.ShloMosaic.ValueIdx Idealize.ShloMosaic.StableHlo

namespace Cert.KernelIdeal.Val

open Cert.KernelIdeal Cert.KernelIdeal.Gen

section AnyInstance

variable {F : FTy → Type} [FloatOps F]

/-- The flattened images stacked: the 160 support rows, then the 480 query rows. -/
def stacked (x0 : FVec F S32x5x3x84x84 .f32) (x1 : FVec F S32x15x3x84x84 .f32) : FVec F S640x21168 .f32 :=
  concatenate S640x21168 0 [⟨S160x21168, shapeCast S160x21168 x0 shapeCasts_S32x5x3x84x84_S160x21168⟩,
    ⟨S480x21168, shapeCast S480x21168 x1 shapeCasts_S32x15x3x84x84_S480x21168⟩] concatenates_S160x21168_S480x21168_S640x21168_d0

/-- The left operand as the host lines before the call compute it. -/
def lhsOf (x0 : FVec F S32x5x3x84x84 .f32) (x1 : FVec F S32x15x3x84x84 .f32) : FVec F S640x21504 .bf16 :=
  truncf .bf16 (pad S640x21504 ![0, 0] ![0, 336] ![0, 0] (stacked x0 x1) (sitofp (F := F) .f32 (constantI S_ 32 0#32))
    pads_S640x21168_S640x21504_000_03360 h_S_) bitsLt_bf16_f32

/-- The right operand as the host lines before the call compute it. -/
def rhsOf (x2 : FVec F S21168x1600 .f32) : FVec F S21504x1664 .bf16 :=
  truncf .bf16 (pad S21504x1664 ![0, 0] ![336, 64] ![0, 0] x2 (sitofp (F := F) .f32 (constantI S_ 32 0#32))
    pads_S21168x1600_S21504x1664_03360_0640 h_S_) bitsLt_bf16_f32

variable (m : (ℓ : Loc nD τ sig) → Buf (Elt F) ℓ)

theorem lhs_entry (c : Dev nD) : V m c main_v4 = lhsOf (F := F) (m ((c : Thread nD τ).loc main_arg0)) (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

theorem rhs_entry (c : Dev nD) : V m c main_v6 = rhsOf (F := F) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  rfl

end AnyInstance

/-! ## At the ideal instance, entry by entry -/

/-- The padding value is zero. -/
theorem padv_zero (i : S_.Idx) : (sitofp (F := Ideal) .f32 (constantI S_ 32 0#32)) i = 0 :=
  sitofp_zero

/-- Left operand inside the unpadded columns: the stacked images. -/
theorem lhsOf_in (x0 : FVec Ideal S32x5x3x84x84 .f32) (x1 : FVec Ideal S32x15x3x84x84 .f32) (i : Fin 640) (k : Fin 21504)
    (hk : k.val < 21168) : lhsOf x0 x1 (ix2 i k) = stacked x0 x1 (ix2 i ⟨k.val, hk⟩) := by
  unfold lhsOf
  rw [truncf_apply]
  refine pad_apply_of_inside _ _ _ _ _ _ _ _ (ix2 i ⟨k.val, hk⟩) fun a => ?_
  match a with
  | ⟨0, _⟩ => show i.val = 0 + i.val * (0 + 1); omega
  | ⟨1, _⟩ => show k.val = 0 + k.val * (0 + 1); omega

/-- Left operand in the padded columns: zero. -/
theorem lhsOf_out (x0 : FVec Ideal S32x5x3x84x84 .f32) (x1 : FVec Ideal S32x15x3x84x84 .f32) (i : Fin 640) (k : Fin 21504)
    (hk : ¬k.val < 21168) : lhsOf x0 x1 (ix2 i k) = 0 := by
  unfold lhsOf
  rw [truncf_apply]
  refine (pad_apply_of_not_inside _ _ _ _ _ _ _ (ix2 i k) (1 : Fin 2) fun h => hk ?_).trans (padv_zero _)
  have h3 : (k.val - 0) / (0 + 1) < 21168 := h.2.2
  omega

/-- A support row of the stack is that row of the flattened support images; -/
theorem stacked_supp (x0 : FVec Ideal S32x5x3x84x84 .f32) (x1 : FVec Ideal S32x15x3x84x84 .f32) (i : Fin 640) (hi : i.val < 160)
    (k : Fin 21168) : stacked x0 x1 (ix2 i k) = shapeCast S160x21168 x0 shapeCasts_S32x5x3x84x84_S160x21168 (ix2 ⟨i.val, hi⟩ k) := by
  unfold stacked
  refine concatenate_pair_apply_left (t := S640x21168) (s₁ := S160x21168) (s₂ := S480x21168) (0 : Fin 2) _ _ _ (ix2 i k) rfl (ix2 ⟨i.val, hi⟩ k) fun b => ?_
  match b with
  | ⟨0, _⟩ => rfl
  | ⟨1, _⟩ => rfl

/-- a query row of the stack is that row, 160 less, of the flattened query images. -/
theorem stacked_qry (x0 : FVec Ideal S32x5x3x84x84 .f32) (x1 : FVec Ideal S32x15x3x84x84 .f32) (i : Fin 640) (hi : 160 ≤ i.val)
    (k : Fin 21168) : stacked x0 x1 (ix2 i k)
      = shapeCast S480x21168 x1 shapeCasts_S32x15x3x84x84_S480x21168 (ix2 ⟨i.val - 160, by have := i.isLt; omega⟩ k) := by
  unfold stacked
  refine concatenate_pair_apply_right (t := S640x21168) (s₁ := S160x21168) (s₂ := S480x21168) (0 : Fin 2) _ _ _ (ix2 i k) rfl rfl (ix2 ⟨i.val - 160, by have := i.isLt; omega⟩ k) (fun b hb => ?_) ?_
  · match b with
    | ⟨0, _⟩ => exact absurd rfl hb
    | ⟨1, _⟩ => rfl
  · show i.val - 160 + 160 = i.val; omega

/-- Right operand inside the unpadded rows and columns: the weights. -/
theorem rhsOf_in (x2 : FVec Ideal S21168x1600 .f32) (k : Fin 21504) (j : Fin 1664) (hk : k.val < 21168) (hj : j.val < 1600) :
    rhsOf x2 (ix2 k j) = x2 (ix2 ⟨k.val, hk⟩ ⟨j.val, hj⟩) := by
  unfold rhsOf
  rw [truncf_apply]
  refine pad_apply_of_inside _ _ _ _ _ _ _ _ (ix2 ⟨k.val, hk⟩ ⟨j.val, hj⟩) fun a => ?_
  match a with
  | ⟨0, _⟩ => show k.val = 0 + k.val * (0 + 1); omega
  | ⟨1, _⟩ => show j.val = 0 + j.val * (0 + 1); omega

end Cert.KernelIdeal.Val

end
-- ==== Proof.Tail.lean ====
/-
  What both programs compute after the encoder product, as ONE function of the two feature arrays.

  From the support features `s` (160 rows = 32 classes × 5 shots, 1600 columns) and the query features `q` (480 rows):
  the class prototypes are the means of each class's five rows; queries and prototypes are divided by their Euclidean
  row norms clamped from below by 1e-8; the similarity of query `i` and class `n` is the inner product of the two unit
  rows; the result is the row-wise log-softmax of the similarities. Kernel and reference apply literally the same host
  operations here, so the certificate never opens this function: it only shows that both feed it equal features.
  Also: the two row ranges the kernel's program cuts out of its padded product (columns 0..1599; rows 0..159 and 160..639).
-/
import proofs.«137156_j45646912422244_1_alg».proof.KernelIdeal

noncomputable section

namespace Cert.KernelIdeal.Post

open Idealize.ShloMosaic Cert.KernelIdeal
open Cert.KernelIdeal.Facts₀ Cert.KernelIdeal.Facts

variable {F : FTy → Type} [FloatOps F] [Facts]

/-- Class prototypes: each class's five support rows summed and divided by 5. -/
def proto (s : FVec F S160x1600 .f32) : FVec F S32x1600 .f32 :=
  Host.divf (Host.reduceAdd (shapeCast _ s shapeCasts_S160x1600_S32x5x1600) (constant S_ .f32 0x00000000#32) reducesTo_S32x5x1600_S32x1600_d1 h_S_)
    (broadcastInDim S32x1600 ![] bcast_S_S32x1600 (constant S_ .f32 0x40A00000#32))

/-- Query rows divided by max(‖row‖₂, 1e-8). -/
def unitQ (q : FVec F S480x1600 .f32) : FVec F S480x1600 .f32 :=
  Host.divf q (broadcastInDim S480x1600 ![0, 1] bcast_S480x1_S480x1600_0_1
    (maximumf (Host.sqrt (broadcastInDim S480x1 ![0] bcast_S480_S480x1_0 (Host.reduceAdd (mulf q q) (constant S_ .f32 0x00000000#32) reducesTo_S480x1600_S480_d1 h_S_)))
      (broadcastInDim S480x1 ![] bcast_S_S480x1 (constant S_ .f32 0x322BCC77#32))))

/-- Prototype rows divided by max(‖row‖₂, 1e-8). -/
def unitP (p : FVec F S32x1600 .f32) : FVec F S32x1600 .f32 :=
  Host.divf p (broadcastInDim S32x1600 ![0, 1] bcast_S32x1_S32x1600_0_1
    (maximumf (Host.sqrt (broadcastInDim S32x1 ![0] bcast_S32_S32x1_0 (Host.reduceAdd (mulf p p) (constant S_ .f32 0x00000000#32) reducesTo_S32x1600_S32_d1 h_S_)))
      (broadcastInDim S32x1 ![] bcast_S_S32x1 (constant S_ .f32 0x322BCC77#32))))

/-- Cosine similarities: unit queries times the transposed unit prototypes. -/
def sim (s : FVec F S160x1600 .f32) (q : FVec F S480x1600 .f32) : FVec F S480x32 .f32 :=
  Host.dotGeneral dot_S480x1600_S1600x32_S480x32_1_0_0_1_n_n none (unitQ q)
    (transpose S1600x32 [1, 0] (unitP (proto s)) transposes_S32x1600_S1600x32_1_0)

/-- `x` minus its row maximum (the maximum taken against -∞ once more, as jax prints it). -/
def shifted (x : FVec F S480x32 .f32) : FVec F S480x32 .f32 :=
  subf x (broadcastInDim S480x32 ![0, 1] bcast_S480x1_S480x32_0_1 (broadcastInDim S480x1 ![0] bcast_S480_S480x1_0
    (maximumf (broadcastInDim S480 ![] bcast_S_S480 (constant S_ .f32 0xFF800000#32))
      (Host.reduce FloatOps.maximumf x (constant S_ .f32 0xFF800000#32) reducesTo_S480x32_S480_d1 h_S_))))

/-- Row-wise log-softmax: the shifted row minus the log of the sum of its exponentials. -/
def logSoftmax (x : FVec F S480x32 .f32) : FVec F S480x32 .f32 :=
  subf (shifted x) (broadcastInDim S480x32 ![0, 1] bcast_S480x1_S480x32_0_1 (Host.log (broadcastInDim S480x1 ![0] bcast_S480_S480x1_0
    (Host.reduceAdd (Host.exp (shifted x)) (constant S_ .f32 0x00000000#32) reducesTo_S480x32_S480_d1 h_S_))))

/-- Everything after the encoder product. -/
def tail (s : FVec F S160x1600 .f32) (q : FVec F S480x1600 .f32) : FVec F S480x32 .f32 :=
  logSoftmax (sim s q)

/-- The support rows of the padded product: columns 0..1599 of rows 0..159. -/
def suppRows (o : FVec F S640x1664 .f32) : FVec F S160x1600 .f32 :=
  extractStridedSlice S160x1600 ![0, 0] (extractStridedSlice S640x1600 ![0, 0] o slices_S640x1664_S640x1600_0_0) slices_S640x1600_S160x1600_0_0

/-- The query rows of the padded product: columns 0..1599 of rows 160..639. -/
def qryRows (o : FVec F S640x1664 .f32) : FVec F S480x1600 .f32 :=
  extractStridedSlice S480x1600 ![160, 0] (extractStridedSlice S640x1600 ![0, 0] o slices_S640x1664_S640x1600_0_0) slices_S640x1600_S480x1600_160_0

end Cert.KernelIdeal.Post

end
-- ==== Proof.HostTail.lean ====
/-
  The host lines that follow the pallas_call in the kernel's program, read as one function of what they find in the
  call's output array: they cut the support rows (0..159) and the query rows (160..639) out of its first 1600 columns
  and apply the shared tail (Proof/Tail.lean) to them. Whatever the other buffers hold does not matter.
-/
import proofs.«137156_j45646912422244_1_alg».proof.Proof.Tail
import proofs.«137156_j45646912422244_1_alg».proof.Proof.Gen.KernelIdeal.Frame
import Idealize.ShloMosaic.Lib.StableHlo.Run

set_option maxRecDepth 65536

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]

set_option maxHeartbeats 2000000 in
/-- From any buffer contents `W`, the 46 host operations after the region leave in the result buffer the tail of the
    two row ranges of the region's output array as `W` has it. -/
theorem after_tail (W : Valuation τ sig (Elt F)) :
    StableHlo.after (List.flatten [hostOps1, hostOps1_1, hostOps1_2, hostOps1_3, hostOps1_4, hostOps1_5]) W (Proc.devRef .tc main_v27)
      = Post.tail (F := F) (Post.suppRows (F := F) (W (Proc.devRef .tc main_v7))) (Post.qryRows (F := F) (W (Proc.devRef .tc main_v7))) := by
  simp only [hostOps1, hostOps1_1, hostOps1_2, hostOps1_3, hostOps1_4, hostOps1_5, List.flatten_cons, List.flatten_nil,
    List.append_nil, List.cons_append, List.nil_append]
  after_results_simp
  rfl

end Cert.KernelIdeal.Val

end
-- ==== Proof.RefTail.lean ====
/-
  The reference program, read: its result is the shared tail (Proof/Tail.lean) of its two encoder products, the
  flattened support images times the weights and the flattened query images times the weights; and each product's
  entry (i, j) is the sum over the 21168 pixel positions k of image i at k times the weight at (k, j).
-/
import proofs.«137156_j45646912422244_1_alg».proof.Proof.Tail
import proofs.«137156_j45646912422244_1_alg».proof.Proof.RefRead
import proofs.«137156_j45646912422244_1_alg».proof.Proof.Gen.KernelIdeal
import Idealize.ShloMosaic.Lib.ValueIdx

set_option maxRecDepth 65536

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable {F : FTy → Type} [FloatOps F]

/-- The reference's result term is the shared tail applied to its two products. -/
theorem res_eq_tail (m : (ℓ : Loc nD τ sig) → Buf (Elt F) ℓ) (c : Dev nD) :
    Cert.ReferenceIdeal.ValueP.res_main_v20 m c
      = Cert.KernelIdeal.Post.tail (F := F)
          (Cert.ReferenceIdeal.ReadP.val_main_v1 (F := F) (m ((c.tc : Thread nD τ).loc main_arg0)) (m ((c.tc : Thread nD τ).loc main_arg2)))
          (Cert.ReferenceIdeal.ReadP.val_main_v7 (F := F) (m ((c.tc : Thread nD τ).loc main_arg1)) (m ((c.tc : Thread nD τ).loc main_arg2))) := by
  unfold Cert.ReferenceIdeal.ValueP.res_main_v20
  rfl

/-- Support product at (i, j): the sum over pixel positions of the flattened support image times the weight. -/
theorem supp_apply (x0 : (⟨S32x5x3x84x84, .f32⟩ : BufTy).Contents (Elt Ideal)) (x2 : (⟨S21168x1600, .f32⟩ : BufTy).Contents (Elt Ideal))
    (i : Fin 160) (j : Fin 1600) :
    Cert.ReferenceIdeal.ReadP.val_main_v1 (F := Ideal) x0 x2 (ix2 i j)
      = ∑ k : Fin 21168, Cert.ReferenceIdeal.ReadP.val_main_v0 (F := Ideal) x0 (ix2 i k) * x2 (ix2 k j) := by
  rw [Cert.ReferenceIdeal.ReadP.val_main_v1_apply]
  refine Finset.sum_congr rfl fun k _ => ?_
  have e1 : Cert.ReferenceIdeal.ReadP.lidx_main_v1 (ix2 i j) k = ix2 i k :=
    funext fun a => Fin.ext (by match a with | ⟨0, _⟩ => rfl | ⟨1, _⟩ => rfl)
  have e2 : Cert.ReferenceIdeal.ReadP.ridx_main_v1 (ix2 i j) k = ix2 k j :=
    funext fun a => Fin.ext (by match a with | ⟨0, _⟩ => rfl | ⟨1, _⟩ => rfl)
  rw [e1, e2]

/-- Query product at (i, j): the same with the flattened query image. -/
theorem qry_apply (x1 : (⟨S32x15x3x84x84, .f32⟩ : BufTy).Contents (Elt Ideal)) (x2 : (⟨S21168x1600, .f32⟩ : BufTy).Contents (Elt Ideal))
    (i : Fin 480) (j : Fin 1600) :
    Cert.ReferenceIdeal.ReadP.val_main_v7 (F := Ideal) x1 x2 (ix2 i j)
      = ∑ k : Fin 21168, Cert.ReferenceIdeal.ReadP.val_main_v6 (F := Ideal) x1 (ix2 i k) * x2 (ix2 k j) := by
  rw [Cert.ReferenceIdeal.ReadP.val_main_v7_apply]
  refine Finset.sum_congr rfl fun k _ => ?_
  have e1 : Cert.ReferenceIdeal.ReadP.lidx_main_v7 (ix2 i j) k = ix2 i k :=
    funext fun a => Fin.ext (by match a with | ⟨0, _⟩ => rfl | ⟨1, _⟩ => rfl)
  have e2 : Cert.ReferenceIdeal.ReadP.ridx_main_v7 (ix2 i j) k = ix2 k j :=
    funext fun a => Fin.ext (by match a with | ⟨0, _⟩ => rfl | ⟨1, _⟩ => rfl)
  rw [e1, e2]

end Cert.ReferenceIdeal.RefValue

end
-- ==== Proof.Bridge.lean ====
/-
  The kernel's program, read whole, and its two feature arrays against the reference's.

  After the run the kernel program's result is the shared tail (Proof/Tail.lean) of the support rows and the query rows
  of the padded product (Proof/Accum.lean, Proof/HostTail.lean). Entry (i, j) of the padded product, for a column j below
  1600, is the sum over all 21504 padded contraction indices of A[i, k] · B[k, j]; the left operand is zero from index 21168
  on, so only the 21168 pixel positions contribute (`MatSum.sum_range_pad`; zero times anything is zero on the extended
  reals, so no finiteness is used), and there A[i, k] is pixel k of flattened image i and B[k, j] the weight: exactly
  the reference's dot product (Proof/RefTail.lean), for support rows i < 160 and for query rows 160 + i alike.
-/
import proofs.«137156_j45646912422244_1_alg».proof.Proof.Accum
import proofs.«137156_j45646912422244_1_alg».proof.Proof.HostPre
import proofs.«137156_j45646912422244_1_alg».proof.Proof.HostTail
import proofs.«137156_j45646912422244_1_alg».proof.Proof.RefTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-! ## The kernel program's run, read -/

/-- The result buffer after the host lines that follow the call: the tail of the padded product's two row ranges. -/
theorem tail_value (c : Dev nD) :
    Pipeline.afterTail₀ cfgs (dats m) 0 (V0 m) [hostOps1, hostOps1_1, hostOps1_2, hostOps1_3, hostOps1_4, hostOps1_5] c main_v27
      = Post.tail (F := Ideal) (Post.suppRows (F := Ideal) (prod m c)) (Post.qryRows (F := Ideal) (prod m c)) := by
  unfold Pipeline.afterTail₀
  refine (after_tail (F := Ideal) _).trans ?_
  have e : Pipeline.withArrays (cfgs 0).spec c (V0 m c) (fun w => (dats m 0 c).arrAt w (cfgs 0).N) (Proc.devRef .tc main_v7) = prod m c :=
    (Pipeline.withArrays_arr spec0 launch0.win.arr_inj c _ _ 2).trans (final m c)
  rw [e]

set_option backward.isDefEq.respectTransparency.types false in
/-- Every weakly fair execution of the kernel's program ends with its result at that value and its arguments unchanged. -/
theorem run : θ_run defs (onTc (τ := τ) (main (F := Ideal))) ⟨m, fun _ => 0, ρ⟩ fun r => ∀ c : Dev nD,
      r.2.mem ((c.tc : Thread nD τ).loc main_v27) = Post.tail (F := Ideal) (Post.suppRows (F := Ideal) (prod m c)) (Post.qryRows (F := Ideal) (prod m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v27 (Pipeline.mem_restRefs_of main_v27 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

/-! ## The operands at natural-number positions, from the arguments -/

/-- Left operand below index 21168: the stacked flattened images. -/
theorem lhsAt_in (c : Dev nD) (r : Fin 640) (k : ℕ) (hk : k < 21168) :
    lhsAt (lhsArr m c) r.val k = stacked (F := Ideal) (m ((c : Thread nD τ).loc main_arg0)) (m ((c : Thread nD τ).loc main_arg1)) (ix2 r ⟨k, hk⟩) := by
  unfold lhsAt
  rw [dif_pos ⟨r.isLt, by omega⟩]
  exact (congrFun (lhs_entry m c) _).trans (lhsOf_in _ _ r ⟨k, by omega⟩ hk)

/-- Left operand from index 21168 on: zero. -/
theorem lhsAt_out (c : Dev nD) (r k : ℕ) (hk : 21168 ≤ k) : lhsAt (lhsArr m c) r k = 0 := by
  unfold lhsAt
  split
  · next h => exact (congrFun (lhs_entry m c) _).trans (lhsOf_out _ _ ⟨r, h.1⟩ ⟨k, h.2⟩ (by show ¬k < 21168; omega))
  · rfl

/-- Right operand below index 21168 and column 1600: the weights. -/
theorem rhsAt_in (c : Dev nD) (k : ℕ) (hk : k < 21168) (j : Fin 1600) :
    rhsAt (rhsArr m c) k j.val = (m ((c : Thread nD τ).loc main_arg2)) (ix2 ⟨k, hk⟩ j) := by
  unfold rhsAt
  rw [dif_pos ⟨by omega, by have := j.isLt; omega⟩]
  exact (congrFun (rhs_entry m c) _).trans (rhsOf_in _ ⟨k, by omega⟩ ⟨j.val, by have := j.isLt; omega⟩ hk j.isLt)

/-- Entry (r, j) of the padded product, for a real column j: the dot product over the 21168 pixel positions of row r of
    the stacked images with column j of the weights. -/
theorem prodAt_eq (c : Dev nD) (r : Fin 640) (j : Fin 1600) (row : Fin 21168 → EReal)
    (hrow : ∀ k : Fin 21168, stacked (F := Ideal) (m ((c : Thread nD τ).loc main_arg0)) (m ((c : Thread nD τ).loc main_arg1)) (ix2 r k) = row k) :
    prodAt m c r.val j.val = ∑ k : Fin 21168, row k * (m ((c : Thread nD τ).loc main_arg2)) (ix2 k j) := by
  unfold prodAt
  have e : Finset.range 21504 = Finset.range (21168 + 336) := rfl
  rw [e, MatSum.sum_range_pad _ 21168 336 (fun k hk => by rw [lhsAt_out m c r.val k hk, zero_mul]), Finset.sum_range]
  refine Finset.sum_congr rfl fun k _ => ?_
  rw [lhsAt_in m c r k.val k.isLt, rhsAt_in m c k.val k.isLt j, hrow]

/-! ## The two row ranges -/

theorem supp_at (G : S640x1664.Idx → EReal) (i : Fin 160) (j : Fin 1600) :
    Post.suppRows (F := Ideal) G (ix2 i j) = G (ix2 ⟨i.val, by have := i.isLt; omega⟩ ⟨j.val, by have := j.isLt; omega⟩) := by
  unfold Post.suppRows
  refine (extractStridedSlice_apply _ _ _ (ix2 i j) (ix2 ⟨i.val, by have := i.isLt; omega⟩ j) (fun a => ?_)).trans ?_
  · match a with
    | ⟨0, _⟩ => show i.val = 0 + i.val; omega
    | ⟨1, _⟩ => show j.val = 0 + j.val; omega
  · refine extractStridedSlice_apply _ _ _ _ _ (fun a => ?_)
    match a with
    | ⟨0, _⟩ => show i.val = 0 + i.val; omega
    | ⟨1, _⟩ => show j.val = 0 + j.val; omega

theorem qry_at (G : S640x1664.Idx → EReal) (i : Fin 480) (j : Fin 1600) :
    Post.qryRows (F := Ideal) G (ix2 i j) = G (ix2 ⟨160 + i.val, by have := i.isLt; omega⟩ ⟨j.val, by have := j.isLt; omega⟩) := by
  unfold Post.qryRows
  refine (extractStridedSlice_apply _ _ _ (ix2 i j) (ix2 ⟨160 + i.val, by have := i.isLt; omega⟩ j) (fun a => ?_)).trans ?_
  · match a with
    | ⟨0, _⟩ => show 160 + i.val = 160 + i.val; rfl
    | ⟨1, _⟩ => show j.val = 0 + j.val; omega
  · refine extractStridedSlice_apply _ _ _ _ _ (fun a => ?_)
    match a with
    | ⟨0, _⟩ => show 160 + i.val = 0 + (160 + i.val); omega
    | ⟨1, _⟩ => show j.val = 0 + j.val; omega

/-! ## Kernel features = reference features -/

/-- The support rows of the padded product are the reference's support product. -/
theorem supp_bridge (c : Dev nD) :
    Post.suppRows (F := Ideal) (prod m c) = Cert.ReferenceIdeal.ReadP.val_main_v1 (F := Ideal) (m ((c : Thread nD τ).loc main_arg0)) (m ((c : Thread nD τ).loc main_arg2)) := by
  funext idx
  obtain ⟨i, j, rfl⟩ : ∃ (i : Fin 160) (j : Fin 1600), idx = ix2 i j := ⟨idx 0, idx 1, eq_ix2 idx⟩
  rw [supp_at, Cert.ReferenceIdeal.RefValue.supp_apply]
  exact prodAt_eq m c ⟨i.val, by have := i.isLt; omega⟩ j _ (fun k => stacked_supp _ _ _ i.isLt k)

/-- The query rows of the padded product are the reference's query product. -/
theorem qry_bridge (c : Dev nD) :
    Post.qryRows (F := Ideal) (prod m c) = Cert.ReferenceIdeal.ReadP.val_main_v7 (F := Ideal) (m ((c : Thread nD τ).loc main_arg1)) (m ((c : Thread nD τ).loc main_arg2)) := by
  funext idx
  obtain ⟨i, j, rfl⟩ : ∃ (i : Fin 480) (j : Fin 1600), idx = ix2 i j := ⟨idx 0, idx 1, eq_ix2 idx⟩
  rw [qry_at, Cert.ReferenceIdeal.RefValue.qry_apply]
  refine prodAt_eq m c ⟨160 + i.val, by have := i.isLt; omega⟩ j _ (fun k => ?_)
  refine (stacked_qry _ _ ⟨160 + i.val, by have := i.isLt; omega⟩ (by show 160 ≤ 160 + i.val; omega) k).trans ?_
  show shapeCast _ _ _ (ix2 ⟨160 + i.val - 160, _⟩ k) = _
  congr 1
  exact congrArg (fun x => ix2 x k) (Fin.ext (by show 160 + i.val - 160 = i.val; omega))

end Cert.KernelIdeal.Val

end
-- ==== Proof.lean ====
/-
  The certificate of an episode-classification kernel: log-softmax of cosine similarities between encoded query images
  and class prototypes, the encoder one matrix product.

  The kernel's program stacks the flattened support (160) and query (480) images, pads the 21168 pixel positions to
  21504 = 14 · 1536 with zeros, pads the weights' 1600 columns to 1664, and computes the 640×1664 product in one
  pallas_call: a 2×14 grid, an f32 accumulator reset at the first contraction block of each row tile and written to the
  output block at the last. The reference computes the two products (support, query) directly. Everything after the
  products — prototypes as class means, rows divided by their clamped norms, the similarity product, log-softmax — is
  literally the same chain of host operations in both programs (Proof/Tail.lean) and is never opened.

  Over the extended reals the two feature arrays are equal entry by entry: the accumulator's blockwise sums re-associate
  into one sum over the padded contraction axis (addition there is commutative and associative, infinities included),
  and the padded terms are 0 · x = 0. No finiteness of the inputs is used; the precondition is never opened.

    frame_Kernel, frame_KernelIdeal   the generated frame certificates of the two printed kernels' programs
    frame_ReferenceIdeal              the reference's run (Proof/RefRun.lean) with the result dropped
    preserves_Kernel_KernelIdeal      the ideal pass rewrote nothing: True
    algebraic                         Proof/Bridge.lean's run of the kernel's program, the reference's run read as the
                                      shared tail of its two products (Proof/RefTail.lean), and the two bridges
-/
import proofs.«137156_j45646912422244_1_alg».proof.Defs
import proofs.«137156_j45646912422244_1_alg».proof.Proof.Gen.Kernel
import proofs.«137156_j45646912422244_1_alg».proof.Proof.Gen.Kernel.Skeleton
import proofs.«137156_j45646912422244_1_alg».proof.Proof.Gen.Kernel.Launch
import proofs.«137156_j45646912422244_1_alg».proof.Proof.Gen.Kernel.Points
import proofs.«137156_j45646912422244_1_alg».proof.Proof.Gen.Kernel.Frame
import proofs.«137156_j45646912422244_1_alg».proof.Proof.Gen.KernelIdeal
import proofs.«137156_j45646912422244_1_alg».proof.Proof.Gen.KernelIdeal.Skeleton
import proofs.«137156_j45646912422244_1_alg».proof.Proof.Gen.KernelIdeal.Launch
import proofs.«137156_j45646912422244_1_alg».proof.Proof.Gen.KernelIdeal.Points
import proofs.«137156_j45646912422244_1_alg».proof.Proof.Gen.KernelIdeal.Frame
import proofs.«137156_j45646912422244_1_alg».proof.Proof.Gen.ReferenceIdeal
import proofs.«137156_j45646912422244_1_alg».proof.Proof.Gen.Pre_finite_inputs
import proofs.«137156_j45646912422244_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the shared tail of equal feature arrays. -/
theorem algebraic : Cert.algebraic_KernelIdeal_ReferenceIdeal := by
  intro m ρ m' ρ' _ hagree
  refine ⟨fun c => Cert.KernelIdeal.Post.tail (F := Ideal)
      (Cert.KernelIdeal.Post.suppRows (F := Ideal) (Cert.KernelIdeal.Val.prod m c))
      (Cert.KernelIdeal.Post.qryRows (F := Ideal) (Cert.KernelIdeal.Val.prod m c)), Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Post.tail (F := Ideal)
      (Cert.KernelIdeal.Post.suppRows (F := Ideal) (Cert.KernelIdeal.Val.prod m c))
      (Cert.KernelIdeal.Post.qryRows (F := Ideal) (Cert.KernelIdeal.Val.prod m c))
  rw [Cert.ReferenceIdeal.RefValue.res_eq_tail, (hagree c).1, (hagree c).2.1, (hagree c).2.2,
    Cert.KernelIdeal.Val.supp_bridge, Cert.KernelIdeal.Val.qry_bridge]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
